-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S2000x64 : Shape := ⟨2, ![2000, 64]⟩
abbrev S2000x1 : Shape := ⟨2, ![2000, 1]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 79
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x1, .f32⟩
  | .hbm, ⟨77, _⟩ => ⟨S1x16, .f32⟩
  | .hbm, ⟨78, _⟩ => ⟨S100000x16, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S64x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v32) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .f32⟩
  | .hbm, ⟨85, _⟩ => ⟨S1600000, .f32⟩
  | .hbm, ⟨86, _⟩ => ⟨S_, .f32⟩
  | .hbm, ⟨87, _⟩ => ⟨S100000, .f32⟩
  | .hbm, ⟨88, _⟩ => ⟨S1600000x1, .i32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .i1⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000, .f32⟩
  | .hbm, ⟨97, _⟩ => ⟨S_, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x64, .f32⟩
  | .hbm, ⟨113, _⟩ => ⟨S_, .f32⟩
  | .hbm, ⟨114, _⟩ => ⟨S100000x64, .f32⟩
  | .hbm, ⟨115, _⟩ => ⟨S1600000x1, .i32⟩
  | .hbm, ⟨116, _⟩ => ⟨S100000x64, .f32⟩
  | .hbm, ⟨117, _⟩ => ⟨S100000x1, .f32⟩
  | .hbm, ⟨118, _⟩ => ⟨S100000x64, .f32⟩
  | .hbm, ⟨119, _⟩ => ⟨S100000x64, .f32⟩
  | .hbm, ⟨120, _⟩ => ⟨S100000x16, .f32⟩
  | .hbm, ⟨121, _⟩ => ⟨S1x16, .f32⟩
  | .hbm, ⟨122, _⟩ => ⟨S100000x16, .f32⟩
  | .hbm, ⟨123, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_call3_v0 : Ref sig .tc := ⟨.hbm, 81, rfl⟩
abbrev main_call3_v1 : Ref sig .tc := ⟨.hbm, 82, rfl⟩
abbrev main_v50 : Ref sig .tc := ⟨.hbm, 83, rfl⟩
abbrev main_cst_16 : Ref sig .tc := ⟨.hbm, 84, rfl⟩
abbrev main_v51 : Ref sig .tc := ⟨.hbm, 85, rfl⟩
abbrev main_cst_17 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_18 : Ref sig .tc := ⟨.hbm, 90, rfl⟩
abbrev main_v55 : Ref sig .tc := ⟨.hbm, 91, rfl⟩
abbrev main_v56 : Ref sig .tc := ⟨.hbm, 92, rfl⟩
abbrev main_cst_19 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_call4_v0 : Ref sig .tc := ⟨.hbm, 98, rfl⟩
abbrev main_call4_v1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_21 : Ref sig .tc := ⟨.hbm, 104, rfl⟩
abbrev main_v64 : Ref sig .tc := ⟨.hbm, 105, rfl⟩
abbrev main_v65 : Ref sig .tc := ⟨.hbm, 106, rfl⟩
abbrev main_c_22 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_23 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelValue.lean ====
/-
  The kernel program's host stretches, read back. @main is five stretches of host operations, the first layer's
  region, one more stretch, the second layer's region. The stretches before the first region compute the two degree
  scales and the first aggregation, and lay the destination scale out as a column and the bias as a row; the stretch
  between the regions aggregates the first region's output again, with the same scales. Each buffer a region reads is
  stated here as the named stage functions of the launch contents of the arguments (and, past the first region, of
  that region's output); what a region does not write it leaves as entered.
-/
import proofs.«158913_j80968723464705_1_alg».proof.Proof.Gen.KernelIdeal.Frame
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo

section Chain

variable {F : FTy → Type} [FloatOps F]

/-- The degree scale of an edge-endpoint array: the degree of a node is the number of edges whose endpoint it is (ones
    scatter-added at the endpoints); a node of positive degree is scaled by the inverse square root of its degree, clamped
    from below at one, a node of degree zero by one. -/
def degScale (idx : IVec S1600000 32) : FVec F S100000 .f32 :=
  select
    (cmpf (F := F) .ogt
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))
      (broadcastInDim S100000 ![] bcast_S_S100000 (constant S_ .f32 0x00000000#32)))
    (Host.rsqrt
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 idx)
          (broadcastInDim S1600000 ![] bcast_S_S1600000 (constant S_ .f32 0x3F800000#32)))
        (broadcastInDim S100000 ![] bcast_S_S100000 (constant S_ .f32 0x3F800000#32))))
    (broadcastInDim S100000 ![] bcast_S_S100000 (id (constant S_ .f32 0x3F800000#32)))

/-- One layer's message passing: scale every node's features by its source-degree scale, gather the scaled row of each
    edge's source (a negative source index counted from the end), and scatter-add the rows at the edges' destinations. -/
def aggregate (x : FVec F S100000x64 .f32) (ns : FVec F S100000 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164
      (mulf x (broadcastInDim S100000x64 ![0, 1] bcast_S100000x1_S100000x64_0_1 (broadcastInDim S100000x1 ![0] bcast_S100000_S100000x1_0 ns)))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Chain

section Host

variable {F : FTy → Type} [FloatOps F]
variable (m : (ℓ : Loc nD τ sig) → Buf (Elt F) ℓ) (ρ : Dev nD → PrngReg)

/-! ## The contents at the first region's entry -/

set_option maxHeartbeats 2000000 in
/-- The source-degree scale, as the stretches before the first region leave it. -/
theorem W5_v9 (c : Dev nD) :
    W5 m ρ c (Proc.devRef .tc main_v9) = (degScale (m ((c.tc : Thread nD τ).loc main_arg1)) : FVec F S100000 .f32) := by
  dsimp only [W5, W4, W3, W2, W1]
  simp only [hostOps0, hostOps0_1, hostOps0_2, hostOps0_3, hostOps0_4]
  after_results
  simp only [TRef.ofBuf, TRef.toBuf, cast_eq]
  rfl

set_option maxHeartbeats 2000000 in
/-- The destination-degree scale. -/
theorem W5_v19 (c : Dev nD) :
    W5 m ρ c (Proc.devRef .tc main_v19) = (degScale (m ((c.tc : Thread nD τ).loc main_arg2)) : FVec F S100000 .f32) := by
  dsimp only [W5, W4, W3, W2, W1]
  simp only [hostOps0, hostOps0_1, hostOps0_2, hostOps0_3, hostOps0_4]
  after_results
  simp only [TRef.ofBuf, TRef.toBuf, cast_eq]
  rfl

set_option maxHeartbeats 2000000 in
theorem W5_arg1 (c : Dev nD) : W5 m ρ c (Proc.devRef .tc main_arg1) = (m ((c.tc : Thread nD τ).loc main_arg1)) := by
  dsimp only [W5, W4, W3, W2, W1]
  simp only [hostOps0, hostOps0_1, hostOps0_2, hostOps0_3, hostOps0_4]
  after_results
  all_goals rfl

set_option maxHeartbeats 2000000 in
theorem W5_arg2 (c : Dev nD) : W5 m ρ c (Proc.devRef .tc main_arg2) = (m ((c.tc : Thread nD τ).loc main_arg2)) := by
  dsimp only [W5, W4, W3, W2, W1]
  simp only [hostOps0, hostOps0_1, hostOps0_2, hostOps0_3, hostOps0_4]
  after_results
  all_goals rfl

set_option maxHeartbeats 2000000 in
theorem W5_arg5 (c : Dev nD) : W5 m ρ c (Proc.devRef .tc main_arg5) = (m ((c.tc : Thread nD τ).loc main_arg5)) := by
  dsimp only [W5, W4, W3, W2, W1]
  simp only [hostOps0, hostOps0_1, hostOps0_2, hostOps0_3, hostOps0_4]
  after_results
  all_goals rfl

set_option maxHeartbeats 2000000 in
theorem W5_arg6 (c : Dev nD) : W5 m ρ c (Proc.devRef .tc main_arg6) = (m ((c.tc : Thread nD τ).loc main_arg6)) := by
  dsimp only [W5, W4, W3, W2, W1]
  simp only [hostOps0, hostOps0_1, hostOps0_2, hostOps0_3, hostOps0_4]
  after_results
  all_goals rfl

set_option maxHeartbeats 4000000 in
/-- The first layer's aggregated messages. -/
theorem V5_v32 (c : Dev nD) :
    V5 m ρ c main_v32 = (aggregate (m ((c.tc : Thread nD τ).loc main_arg0)) (degScale (m ((c.tc : Thread nD τ).loc main_arg1))) (m ((c.tc : Thread nD τ).loc main_arg1)) (m ((c.tc : Thread nD τ).loc main_arg2)) : FVec F S100000x64 .f32) := by
  show W5 m ρ c (Proc.devRef .tc main_v32) = _
  dsimp only [W5, W4, W3, W2, W1]
  simp only [hostOps0, hostOps0_1, hostOps0_2, hostOps0_3, hostOps0_4]
  after_results
  simp only [TRef.ofBuf, TRef.toBuf, cast_eq]
  rfl

set_option maxHeartbeats 2000000 in
/-- The destination-degree scale laid out as a column. -/
theorem V5_v33 (c : Dev nD) :
    V5 m ρ c main_v33 = (shapeCast S100000x1 (degScale (m ((c.tc : Thread nD τ).loc main_arg2)) : FVec F S100000 .f32) shapeCasts_S100000_S100000x1 : FVec F S100000x1 .f32) := by
  show W5 m ρ c (Proc.devRef .tc main_v33) = _
  dsimp only [W5, W4, W3, W2, W1]
  simp only [hostOps0, hostOps0_1, hostOps0_2, hostOps0_3, hostOps0_4]
  after_results
  simp only [TRef.ofBuf, TRef.toBuf, cast_eq]
  rfl

set_option maxHeartbeats 2000000 in
theorem V5_arg3 (c : Dev nD) : V5 m ρ c main_arg3 = (m ((c.tc : Thread nD τ).loc main_arg3)) := by
  show W5 m ρ c (Proc.devRef .tc main_arg3) = _
  dsimp only [W5, W4, W3, W2, W1]
  simp only [hostOps0, hostOps0_1, hostOps0_2, hostOps0_3, hostOps0_4]
  after_results
  all_goals rfl

set_option maxHeartbeats 2000000 in
/-- The first layer's bias laid out as a row. -/
theorem V5_v34 (c : Dev nD) :
    V5 m ρ c main_v34 = (shapeCast S1x64 (m ((c.tc : Thread nD τ).loc main_arg4)) shapeCasts_S64_S1x64 : FVec F S1x64 .f32) := by
  show W5 m ρ c (Proc.devRef .tc main_v34) = _
  dsimp only [W5, W4, W3, W2, W1]
  simp only [hostOps0, hostOps0_1, hostOps0_2, hostOps0_3, hostOps0_4]
  after_results
  all_goals rfl

/-! ## The contents at the second region's entry, over the first region's exit contents -/

set_option maxHeartbeats 2000000 in
/-- The second layer's aggregated messages, of whatever the first region left in its output. -/
theorem V7_v48 (c : Dev nD) :
    V7 m ρ c main_v48
      = (aggregate (W6 m ρ c (Proc.devRef .tc main_v35)) (W6 m ρ c (Proc.devRef .tc main_v9))
          (W6 m ρ c (Proc.devRef .tc main_arg1)) (W6 m ρ c (Proc.devRef .tc main_arg2)) : FVec F S100000x64 .f32) := by
  show W7 m ρ c (Proc.devRef .tc main_v48) = _
  dsimp only [W7]
  simp only [hostOps1]
  after_results
  all_goals rfl

set_option maxHeartbeats 2000000 in
theorem V7_v49 (c : Dev nD) :
    V7 m ρ c main_v49 = (shapeCast S100000x1 (W6 m ρ c (Proc.devRef .tc main_v19) : FVec F S100000 .f32) shapeCasts_S100000_S100000x1 : FVec F S100000x1 .f32) := by
  show W7 m ρ c (Proc.devRef .tc main_v49) = _
  dsimp only [W7]
  simp only [hostOps1]
  after_results
  all_goals rfl

set_option maxHeartbeats 2000000 in
theorem V7_arg5 (c : Dev nD) : V7 m ρ c main_arg5 = W6 m ρ c (Proc.devRef .tc main_arg5) := by
  show W7 m ρ c (Proc.devRef .tc main_arg5) = _
  dsimp only [W7]
  simp only [hostOps1]
  after_results

set_option maxHeartbeats 2000000 in
theorem V7_v50 (c : Dev nD) :
    V7 m ρ c main_v50 = (shapeCast S1x16 (W6 m ρ c (Proc.devRef .tc main_arg6) : FVec F S16 .f32) shapeCasts_S16_S1x16 : FVec F S1x16 .f32) := by
  show W7 m ρ c (Proc.devRef .tc main_v50) = _
  dsimp only [W7]
  simp only [hostOps1]
  after_results
  all_goals rfl

/-- What the first region does not write it leaves as entered. -/
theorem W6_v9 (c : Dev nD) : W6 m ρ c (Proc.devRef .tc main_v9) = (degScale (m ((c.tc : Thread nD τ).loc main_arg1)) : FVec F S100000 .f32) :=
  (W6_of_ne m ρ c main_v9 (by decide)).trans (W5_v9 m ρ c)
theorem W6_v19 (c : Dev nD) : W6 m ρ c (Proc.devRef .tc main_v19) = (degScale (m ((c.tc : Thread nD τ).loc main_arg2)) : FVec F S100000 .f32) :=
  (W6_of_ne m ρ c main_v19 (by decide)).trans (W5_v19 m ρ c)
theorem W6_arg1 (c : Dev nD) : W6 m ρ c (Proc.devRef .tc main_arg1) = (m ((c.tc : Thread nD τ).loc main_arg1)) :=
  (W6_of_ne m ρ c main_arg1 (by decide)).trans (W5_arg1 m ρ c)
theorem W6_arg2 (c : Dev nD) : W6 m ρ c (Proc.devRef .tc main_arg2) = (m ((c.tc : Thread nD τ).loc main_arg2)) :=
  (W6_of_ne m ρ c main_arg2 (by decide)).trans (W5_arg2 m ρ c)
theorem W6_arg5 (c : Dev nD) : W6 m ρ c (Proc.devRef .tc main_arg5) = (m ((c.tc : Thread nD τ).loc main_arg5)) :=
  (W6_of_ne m ρ c main_arg5 (by decide)).trans (W5_arg5 m ρ c)
theorem W6_arg6 (c : Dev nD) : W6 m ρ c (Proc.devRef .tc main_arg6) = (m ((c.tc : Thread nD τ).loc main_arg6)) :=
  (W6_of_ne m ρ c main_arg6 (by decide)).trans (W5_arg6 m ρ c)

end Host

end Cert.KernelIdeal.Bridge

end
-- ==== Proof.Payload0.lean ====
/-
  What the first layer's kernel body stores, read at one entry of its 2000 × 64 block, on the extended reals.
  The body scales each row of the aggregated block by that row's degree factor, multiplies by the weights into a zero
  accumulator, adds the bias row and clips at zero. The two changes of float format are the identity here, and the
  matrix product is the plain sum over the 64 contracted positions, so entry `(p, q)` of the block is

      max (∑ₖ (x0[p, k] · x1[p, 0]) · x2[k, q] + x3[0, q]) 0.
-/
import proofs.«158913_j80968723464705_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Dense

open Cert.KernelIdeal Cert.KernelIdeal.Gen Idealize.ShloMosaic Idealize.ShloMosaic.ValueIdx

/-! ## The block product's operand indices: output `(p, q)` and contracted position `k` read `(p, k)` and `(k, q)` -/

theorem lhs0_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs0_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs0_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs0_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into the zero accumulator, at entry `(p, q)`: the sum over the 64 contracted positions. -/
theorem product0_apply (L : FVec Ideal S2000x64 .bf16) (R : FVec Ideal S64x64 .bf16) (p : Fin 2000) (q : Fin 64) :
    matmul dot_S2000x64_S64x64_S2000x64_1_0_0_1_n_n none L R (constant S2000x64 .f32 0x00000000#32) (ix2 p q)
      = ∑ k : Fin 64, L (ix2 p k) * R (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- One column broadcast over 64: a `[2000, 1]` array broadcast to `[2000, 64]` reads, at `(p, k)`, the column's
    entry of row `p`. -/
theorem column_bcast64 (v : (⟨2, ![2000, 1]⟩ : Shape).Idx → EReal) (h : (⟨2, ![2000, 1]⟩ : Shape).Broadcasts ⟨2, ![2000, 64]⟩)
    (p : Fin 2000) (k : Fin 64) : broadcastTo ⟨2, ![2000, 64]⟩ v h (ix2 p k) = v (ix2 p (0 : Fin 1)) := by
  refine broadcastTo_apply v h (ix2 p k) (ix2 p (0 : Fin 1)) fun ax => ?_
  match ax with
  | ⟨0, _⟩ =>
    show p.val = if (2000 : Nat) = 1 then 0 else p.val
    rw [if_neg (by decide)]
  | ⟨1, _⟩ => rfl

/-- The payload is this tree of operations of the four loaded blocks. -/
theorem pay0_eq (x0 : Vec Ideal S2000x64 .f32) (x1 : Vec Ideal S2000x1 .f32) (x2 : Vec Ideal S64x64 .f32) (x3 : Vec Ideal S1x64 .f32) :
    k0_pay1 (F := Ideal) x0 x1 x2 x3
      = maximumf (F := Ideal)
          (addf (F := Ideal)
            (matmul (F := Ideal) dot_S2000x64_S64x64_S2000x64_1_0_0_1_n_n none
              (truncf (F := Ideal) .bf16 (mulf (F := Ideal) (shapeCast S2000x64 x0 shapeCasts_S2000x64_S2000x64)
                (broadcastTo S2000x64 (shapeCast S2000x1 x1 shapeCasts_S2000x1_S2000x1) broadcasts_S2000x1_S2000x64)) bitsLt_bf16_f32)
              (truncf (F := Ideal) .bf16 x2 bitsLt_bf16_f32)
              (constant (F := Ideal) S2000x64 .f32 0x00000000#32))
            (broadcastTo S2000x64 (shapeCast S1x64 x3 shapeCasts_S1x64_S1x64) broadcasts_S1x64_S2000x64))
          (broadcast S2000x64 (Scalar.ofBits (F := Ideal) .f32 0x00000000#32)) := rfl

/-- THE FIRST LAYER'S PAYLOAD AT AN ENTRY. -/
theorem pay0_apply (x0 : Vec Ideal S2000x64 .f32) (x1 : Vec Ideal S2000x1 .f32) (x2 : Vec Ideal S64x64 .f32) (x3 : Vec Ideal S1x64 .f32)
    (p : Fin 2000) (q : Fin 64) :
    k0_pay1 (F := Ideal) x0 x1 x2 x3 (ix2 p q)
      = max ((∑ k : Fin 64, (x0 (ix2 p k) * x1 (ix2 p (0 : Fin 1))) * x2 (ix2 k q)) + x3 (ix2 (0 : Fin 1) q)) 0 := by
  rw [pay0_eq, shapeCast_self, shapeCast_self, shapeCast_self, maximumf_apply, addf_apply, broadcast_apply, product0_apply,
    broadcastTo_1b_ab_apply]
  show max (_ + _) (Ideal.ofBits .f32 0x00000000#32) = _
  rw [Ideal.ofBits_zero_f32]
  refine congrArg (fun s => max (s + x3 (ix2 (0 : Fin 1) q)) 0) (Finset.sum_congr rfl fun k _ => ?_)
  rw [truncf_apply, truncf_apply, mulf_apply, column_bcast64]

end Cert.KernelIdeal.Dense

end
-- ==== Proof.DenseSpec.lean ====
/-
  The dense stage of one graph-convolution layer on the extended reals, as a function of whole arrays read index by
  index. With `a` the aggregated messages (one row per node), `n` the destination-degree scale (one entry per node,
  held as a column), `W` the weights and `b` the bias (held as a row), entry `(p, q)` of the stage is

      ∑ₖ (a[p, k] · n[p]) · W[k, q] + b[q].

  The first layer (64 features to 64) clips this at zero from below; the second (64 features to 16 classes) does not.
  Both programs compute exactly this sum of products, entry by entry: the scale is applied to the row before the
  product on both sides, so no distributive law — and no finiteness of the inputs — is involved.
-/
import Idealize.ShloMosaic.PureOps.Ideal
import Idealize.ShloMosaic.Lib.ValueIdx

noncomputable section

open scoped BigOperators

namespace Cert.Gcn

open Idealize.ShloMosaic Idealize.ShloMosaic.ValueIdx

/-- Entry `(p, q)` of the first layer's dense stage: the scaled row `p` of `a` against column `q` of `W`, plus
    the bias, clipped at zero. -/
def hiddenAt (a : (⟨2, ![100000, 64]⟩ : Shape).Idx → EReal) (n : (⟨2, ![100000, 1]⟩ : Shape).Idx → EReal)
    (W : (⟨2, ![64, 64]⟩ : Shape).Idx → EReal) (b : (⟨2, ![1, 64]⟩ : Shape).Idx → EReal) (p : Fin 100000) (q : Fin 64) : EReal :=
  max ((∑ k : Fin 64, (a (ix2 p k) * n (ix2 p (0 : Fin 1))) * W (ix2 k q)) + b (ix2 (0 : Fin 1) q)) 0

/-- The first layer's dense stage as one array. -/
def hidden (a : (⟨2, ![100000, 64]⟩ : Shape).Idx → EReal) (n : (⟨2, ![100000, 1]⟩ : Shape).Idx → EReal)
    (W : (⟨2, ![64, 64]⟩ : Shape).Idx → EReal) (b : (⟨2, ![1, 64]⟩ : Shape).Idx → EReal) :
    (⟨2, ![100000, 64]⟩ : Shape).Idx → EReal :=
  fun i => hiddenAt a n W b (i 0) (i 1)

theorem hidden_ix2 (a : (⟨2, ![100000, 64]⟩ : Shape).Idx → EReal) (n : (⟨2, ![100000, 1]⟩ : Shape).Idx → EReal)
    (W : (⟨2, ![64, 64]⟩ : Shape).Idx → EReal) (b : (⟨2, ![1, 64]⟩ : Shape).Idx → EReal) (p : Fin 100000) (q : Fin 64) :
    hidden a n W b (ix2 p q) = hiddenAt a n W b p q := rfl

/-- Entry `(p, q)` of the second layer's dense stage: the same sum of products over 16 output columns, no clip. -/
def logitsAt (a : (⟨2, ![100000, 64]⟩ : Shape).Idx → EReal) (n : (⟨2, ![100000, 1]⟩ : Shape).Idx → EReal)
    (W : (⟨2, ![64, 16]⟩ : Shape).Idx → EReal) (b : (⟨2, ![1, 16]⟩ : Shape).Idx → EReal) (p : Fin 100000) (q : Fin 16) : EReal :=
  (∑ k : Fin 64, (a (ix2 p k) * n (ix2 p (0 : Fin 1))) * W (ix2 k q)) + b (ix2 (0 : Fin 1) q)

/-- The second layer's dense stage as one array. -/
def logits (a : (⟨2, ![100000, 64]⟩ : Shape).Idx → EReal) (n : (⟨2, ![100000, 1]⟩ : Shape).Idx → EReal)
    (W : (⟨2, ![64, 16]⟩ : Shape).Idx → EReal) (b : (⟨2, ![1, 16]⟩ : Shape).Idx → EReal) :
    (⟨2, ![100000, 16]⟩ : Shape).Idx → EReal :=
  fun i => logitsAt a n W b (i 0) (i 1)

theorem logits_ix2 (a : (⟨2, ![100000, 64]⟩ : Shape).Idx → EReal) (n : (⟨2, ![100000, 1]⟩ : Shape).Idx → EReal)
    (W : (⟨2, ![64, 16]⟩ : Shape).Idx → EReal) (b : (⟨2, ![1, 16]⟩ : Shape).Idx → EReal) (p : Fin 100000) (q : Fin 16) :
    logits a n W b (ix2 p q) = logitsAt a n W b p q := rfl

end Cert.Gcn

end
-- ==== Proof.Region0.lean ====
/-
  The first layer's output array after its pipelined region, as one function of the arrays the region finds.
  The region walks 50 grid points. Point `t` fetches rows `2000 t … 2000 t + 1999` of the aggregated array and of the
  degree column, the whole weight matrix and the bias row, and writes back the same rows of the output. What it writes
  is the matching row block of `Gcn.hidden` of the whole arrays, and the 50 row blocks tile the output: the output ends
  holding `Gcn.hidden` of the arrays at the region's entry, whatever those contents are.
-/
import proofs.«158913_j80968723464705_1_alg».proof.Proof.Gen.KernelIdeal.Frame
import proofs.«158913_j80968723464705_1_alg».proof.Proof.Payload0
import proofs.«158913_j80968723464705_1_alg».proof.Proof.DenseSpec
import Idealize.ShloMosaic.Lib.Pipeline.Value

set_option maxRecDepth 16384

noncomputable section

open scoped BigOperators

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated array's, the degree column's and the output's windows move one row
    block per point; the weights' and the bias's stay at the one block. -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- ONE POINT, over plain arrays: if the four blocks are rows `2000 T …` of the aggregated array and of the degree
    column, the weights and the bias row, the payload at a block entry is `Gcn.hidden` at the array entry under it. -/
theorem point0 (A : S100000x64.Idx → EReal) (Nn : S100000x1.Idx → EReal) (W : S64x64.Idx → EReal) (B : S1x64.Idx → EReal)
    (x0 : Vec Ideal S2000x64 .f32) (x1 : Vec Ideal S2000x1 .f32) (x2 : Vec Ideal S64x64 .f32) (x3 : Vec Ideal S1x64 .f32) (T : Nat)
    (h0 : ∀ (x : S2000x64.Idx) (i : S100000x64.Idx), (i 0).val = T * 2000 + (x 0).val → (i 1).val = (x 1).val → x0 x = A i)
    (h1 : ∀ (x : S2000x1.Idx) (i : S100000x1.Idx), (i 0).val = T * 2000 + (x 0).val → (i 1).val = (x 1).val → x1 x = Nn i)
    (h2 : x2 = W) (h3 : x3 = B) (y : S2000x64.Idx) (i : S100000x64.Idx)
    (hi0 : (i 0).val = T * 2000 + (y 0).val) (hi1 : (i 1).val = (y 1).val) :
    k0_pay1 (F := Ideal) x0 x1 x2 x3 y = Cert.Gcn.hidden A Nn W B i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hi1
  subst hs
  subst h2 h3
  rw [pay0_apply, Cert.Gcn.hidden_ix2]
  unfold Cert.Gcn.hiddenAt
  have hn : x1 (ix2 p (0 : Fin 1)) = Nn (ix2 r (0 : Fin 1)) := h1 _ _ hi0 rfl
  rw [hn]
  refine congrArg (fun z => max (z + x3 (ix2 (0 : Fin 1) s)) 0) (Finset.sum_congr rfl fun k _ => ?_)
  rw [h0 (ix2 p k) (ix2 r k) hi0 rfl]

/-! ## The four blocks of a point, read off the arrays the region finds -/

theorem agg_block (c : Dev nD) (t : Fin cfg0.N) (x : S2000x64.Idx) (i : S100000x64.Idx)
    (h0 : (i 0).val = t.val * 2000 + (x 0).val) (h1 : (i 1).val = (x 1).val) :
    (iblk0 V c 0 t : Vec Ideal S2000x64 .f32) x = (V c main_v32 : S100000x64.Idx → EReal) i := by
  obtain ⟨e0, e1, -⟩ := maps0 t
  unfold iblk0
  rw [View.read_apply]
  show V c main_v32 _ = V c main_v32 _
  refine congrArg (V c main_v32) (funext fun a => Fin.ext ?_)
  match a with
  | ⟨0, _⟩ => show win0_0.index t 0 * 2000 + 1 * (x 0).val = (i 0).val; rw [e0, h0]; omega
  | ⟨1, _⟩ => show win0_0.index t 1 * 64 + 1 * (x 1).val = (i 1).val; rw [e1, h1]; omega

theorem deg_block (c : Dev nD) (t : Fin cfg0.N) (x : S2000x1.Idx) (i : S100000x1.Idx)
    (h0 : (i 0).val = t.val * 2000 + (x 0).val) (h1 : (i 1).val = (x 1).val) :
    (iblk0 V c 1 t : Vec Ideal S2000x1 .f32) x = (V c main_v33 : S100000x1.Idx → EReal) i := by
  obtain ⟨-, -, e0, e1, -⟩ := maps0 t
  unfold iblk0
  rw [View.read_apply]
  show V c main_v33 _ = V c main_v33 _
  refine congrArg (V c main_v33) (funext fun a => Fin.ext ?_)
  match a with
  | ⟨0, _⟩ => show win0_1.index t 0 * 2000 + 1 * (x 0).val = (i 0).val; rw [e0, h0]; omega
  | ⟨1, _⟩ => show win0_1.index t 1 * 1 + 1 * (x 1).val = (i 1).val; rw [e1, h1]; omega

theorem weight_block (c : Dev nD) (t : Fin cfg0.N) :
    (iblk0 V c 2 t : Vec Ideal S64x64 .f32) = (V c main_arg3 : S64x64.Idx → EReal) := by
  obtain ⟨-, -, -, -, e0, e1, -⟩ := maps0 t
  funext x
  unfold iblk0
  rw [View.read_apply]
  show V c main_arg3 _ = V c main_arg3 _
  refine congrArg (V c main_arg3) (funext fun a => Fin.ext ?_)
  match a with
  | ⟨0, _⟩ => show win0_2.index t 0 * 64 + 1 * (x 0).val = (x 0).val; rw [e0]; omega
  | ⟨1, _⟩ => show win0_2.index t 1 * 64 + 1 * (x 1).val = (x 1).val; rw [e1]; omega

theorem bias_block (c : Dev nD) (t : Fin cfg0.N) :
    (iblk0 V c 3 t : Vec Ideal S1x64 .f32) = (V c main_v34 : S1x64.Idx → EReal) := by
  obtain ⟨-, -, -, -, -, -, e0, e1, -⟩ := maps0 t
  funext x
  unfold iblk0
  rw [View.read_apply]
  show V c main_v34 _ = V c main_v34 _
  refine congrArg (V c main_v34) (funext fun a => Fin.ext ?_)
  match a with
  | ⟨0, _⟩ => show win0_3.index t 0 * 1 + 1 * (x 0).val = (x 0).val; rw [e0]; omega
  | ⟨1, _⟩ => show win0_3.index t 1 * 64 + 1 * (x 1).val = (x 1).val; rw [e1]; omega

/-- WHAT POINT `t` WRITES BACK is row block `t` of `Gcn.hidden` of the arrays the region finds. -/
theorem flushed0_eq (c : Dev nD) (t : Fin cfg0.N) :
    (dat0 V c).flushed 4 t
      = ((cfg0.win 4).blk t).view.read (Elt Ideal) (Cert.Gcn.hidden (V c main_v32) (V c main_v33) (V c main_arg3) (V c main_v34)) := by
  obtain ⟨-, -, -, -, -, -, -, -, e0, e1⟩ := maps0 t
  show (cfg0.win 4).cut (grid0.coords t) ((dat0 V c).after 4 t) = _
  rw [after0_4]
  unfold out0_4
  rw [View.canon_unit_zero hz]
  simp only [View.ld_unit_zero (S := S2000x64) hz, View.ld_unit_zero (S := S2000x1) hz, View.ld_unit_zero (S := S64x64) hz,
    View.ld_unit_zero (S := S1x64) hz]
  funext y
  rw [View.read_apply]
  exact point0 (V c main_v32) (V c main_v33) (V c main_arg3) (V c main_v34) (iblk0 V c 0 t) (iblk0 V c 1 t) (iblk0 V c 2 t) (iblk0 V c 3 t)
    t.val (agg_block V c t) (deg_block V c t) (weight_block V c t) (bias_block V c t) y (((cfg0.win 4).blk t).view.emb y)
    (by show win0_4.index t 0 * 2000 + 1 * (y 0).val = t.val * 2000 + (y 0).val; rw [e0]; omega)
    (by show win0_4.index t 1 * 64 + 1 * (y 1).val = (y 1).val; rw [e1]; omega)

/-- An index of the output array is in point `t`'s block iff each coordinate is in the block's range on its axis. -/
theorem mem_blk0 (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v35).slice (win0_4.rect t)).set ↔ _
  rw [View.set_slice_whole, Rect.mem_set_unit]
  exact Iff.rfl

/-- The 50 row blocks tile the output: row `r` lies in the block of point `r / 2000`. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 50 := N_0
  have hq : (i 0).val / 2000 < cfg0.N := by rw [hN]; omega
  obtain ⟨-, -, -, -, -, -, -, -, e0, e1⟩ := maps0 ⟨(i 0).val / 2000, hq⟩
  refine ⟨⟨(i 0).val / 2000, hq⟩, flush0_4 _, ?_⟩
  rw [mem_blk0]
  intro a
  match a with
  | ⟨0, _⟩ =>
    show win0_4.index ⟨(i 0).val / 2000, hq⟩ 0 * 2000 ≤ (i 0).val ∧ (i 0).val < win0_4.index ⟨(i 0).val / 2000, hq⟩ 0 * 2000 + 2000
    rw [e0]; show (i 0).val / 2000 * 2000 ≤ (i 0).val ∧ (i 0).val < (i 0).val / 2000 * 2000 + 2000; omega
  | ⟨1, _⟩ =>
    show win0_4.index ⟨(i 0).val / 2000, hq⟩ 1 * 64 ≤ (i 1).val ∧ (i 1).val < win0_4.index ⟨(i 0).val / 2000, hq⟩ 1 * 64 + 64
    rw [e1]; omega

/-- THE FIRST LAYER'S OUTPUT ARRAY after the region. -/
theorem final0 (c : Dev nD) :
    (dat0 V c).arrAt 4 cfg0.N = Cert.Gcn.hidden (V c main_v32) (V c main_v33) (V c main_arg3) (V c main_v34) :=
  (dat0 V c).arrAt_eq_of_cover 4 _ (fun t _ => flushed0_eq V c t) cover0

end Cert.KernelIdeal.Dense

end
-- ==== Proof.Payload1.lean ====
/-
  What the second layer's kernel body stores, read at one entry of its 2000 × 16 block, on the extended reals.
  The body scales each row of the aggregated block by that row's degree factor, multiplies by the 64 × 16 weights into
  a zero accumulator and adds the bias row; there is no clip in this layer. Entry `(p, q)` of the block is

      ∑ₖ (x0[p, k] · x1[p, 0]) · x2[k, q] + x3[0, q].
-/
import proofs.«158913_j80968723464705_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Classes

open Cert.KernelIdeal Cert.KernelIdeal.Gen Idealize.ShloMosaic Idealize.ShloMosaic.ValueIdx

/-! ## The block product's operand indices: output `(p, q)` and contracted position `k` read `(p, k)` and `(k, q)` -/

theorem lhs1_0 (i : S2000x16.Idx) (q : dot_S2000x64_S64x16_S2000x16_1_0_0_1_n_n.contr.Idx) :
    (dot_S2000x64_S64x16_S2000x16_1_0_0_1_n_n.lhsIdx i q 0).val = (i 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
theorem lhs1_1 (i : S2000x16.Idx) (q : dot_S2000x64_S64x16_S2000x16_1_0_0_1_n_n.contr.Idx) :
    (dot_S2000x64_S64x16_S2000x16_1_0_0_1_n_n.lhsIdx i q 1).val = (q ⟨0, by decide⟩).val :=
  dot_S2000x64_S64x16_S2000x16_1_0_0_1_n_n.lhsIdx_val_of_single rfl i q
theorem rhs1_0 (i : S2000x16.Idx) (q : dot_S2000x64_S64x16_S2000x16_1_0_0_1_n_n.contr.Idx) :
    (dot_S2000x64_S64x16_S2000x16_1_0_0_1_n_n.rhsIdx i q 0).val = (q ⟨0, by decide⟩).val :=
  dot_S2000x64_S64x16_S2000x16_1_0_0_1_n_n.rhsIdx_val_of_single rfl i q
theorem rhs1_1 (i : S2000x16.Idx) (q : dot_S2000x64_S64x16_S2000x16_1_0_0_1_n_n.contr.Idx) :
    (dot_S2000x64_S64x16_S2000x16_1_0_0_1_n_n.rhsIdx i q 1).val = (i 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- The block product into the zero accumulator, at entry `(p, q)`: the sum over the 64 contracted positions. -/
theorem product1_apply (L : FVec Ideal S2000x64 .bf16) (R : FVec Ideal S64x16 .bf16) (p : Fin 2000) (q : Fin 16) :
    matmul dot_S2000x64_S64x16_S2000x16_1_0_0_1_n_n none L R (constant S2000x16 .f32 0x00000000#32) (ix2 p q)
      = ∑ k : Fin 64, L (ix2 p k) * R (ix2 k q) := by
  simp only [matmul]
  rw [Ideal.matmul_constant_zero_apply, ← Equiv.sum_comp (contrEquiv1 dot_S2000x64_S64x16_S2000x16_1_0_0_1_n_n 64 rfl rfl).symm]
  refine Finset.sum_congr rfl fun k _ => ?_
  have hk := contrEquiv1_symm_val dot_S2000x64_S64x16_S2000x16_1_0_0_1_n_n 64 rfl rfl k
  have el : dot_S2000x64_S64x16_S2000x16_1_0_0_1_n_n.lhsIdx (ix2 p q) ((contrEquiv1 dot_S2000x64_S64x16_S2000x16_1_0_0_1_n_n 64 rfl rfl).symm k) = ix2 p k := funext fun a => Fin.ext (by
    match a with
    | ⟨0, _⟩ => exact lhs1_0 _ _
    | ⟨1, _⟩ => exact (lhs1_1 _ _).trans hk)
  have er : dot_S2000x64_S64x16_S2000x16_1_0_0_1_n_n.rhsIdx (ix2 p q) ((contrEquiv1 dot_S2000x64_S64x16_S2000x16_1_0_0_1_n_n 64 rfl rfl).symm k) = ix2 k q := funext fun a => Fin.ext (by
    match a with
    | ⟨0, _⟩ => exact (rhs1_0 _ _).trans hk
    | ⟨1, _⟩ => exact rhs1_1 _ _)
  rw [el, er]

/-- One column broadcast over 64: a `[2000, 1]` array broadcast to `[2000, 64]` reads, at `(p, k)`, the column's
    entry of row `p`. -/
theorem column_bcast (v : (⟨2, ![2000, 1]⟩ : Shape).Idx → EReal) (h : (⟨2, ![2000, 1]⟩ : Shape).Broadcasts ⟨2, ![2000, 64]⟩)
    (p : Fin 2000) (k : Fin 64) : broadcastTo ⟨2, ![2000, 64]⟩ v h (ix2 p k) = v (ix2 p (0 : Fin 1)) := by
  refine broadcastTo_apply v h (ix2 p k) (ix2 p (0 : Fin 1)) fun ax => ?_
  match ax with
  | ⟨0, _⟩ =>
    show p.val = if (2000 : Nat) = 1 then 0 else p.val
    rw [if_neg (by decide)]
  | ⟨1, _⟩ => rfl

/-- The payload is this tree of operations of the four loaded blocks. -/
theorem pay1_eq (x0 : Vec Ideal S2000x64 .f32) (x1 : Vec Ideal S2000x1 .f32) (x2 : Vec Ideal S64x16 .f32) (x3 : Vec Ideal S1x16 .f32) :
    k1_pay1 (F := Ideal) x0 x1 x2 x3
      = addf (F := Ideal)
          (matmul (F := Ideal) dot_S2000x64_S64x16_S2000x16_1_0_0_1_n_n none
            (truncf (F := Ideal) .bf16 (mulf (F := Ideal) (shapeCast S2000x64 x0 shapeCasts_S2000x64_S2000x64)
              (broadcastTo S2000x64 (shapeCast S2000x1 x1 shapeCasts_S2000x1_S2000x1) broadcasts_S2000x1_S2000x64)) bitsLt_bf16_f32)
            (truncf (F := Ideal) .bf16 x2 bitsLt_bf16_f32)
            (constant (F := Ideal) S2000x16 .f32 0x00000000#32))
          (broadcastTo S2000x16 (shapeCast S1x16 x3 shapeCasts_S1x16_S1x16) broadcasts_S1x16_S2000x16) := rfl

/-- THE SECOND LAYER'S PAYLOAD AT AN ENTRY. -/
theorem pay1_apply (x0 : Vec Ideal S2000x64 .f32) (x1 : Vec Ideal S2000x1 .f32) (x2 : Vec Ideal S64x16 .f32) (x3 : Vec Ideal S1x16 .f32)
    (p : Fin 2000) (q : Fin 16) :
    k1_pay1 (F := Ideal) x0 x1 x2 x3 (ix2 p q)
      = (∑ k : Fin 64, (x0 (ix2 p k) * x1 (ix2 p (0 : Fin 1))) * x2 (ix2 k q)) + x3 (ix2 (0 : Fin 1) q) := by
  rw [pay1_eq, shapeCast_self, shapeCast_self, shapeCast_self, addf_apply, product1_apply, broadcastTo_1b_ab_apply]
  refine congrArg (fun s => s + x3 (ix2 (0 : Fin 1) q)) (Finset.sum_congr rfl fun k _ => ?_)
  rw [truncf_apply, truncf_apply, mulf_apply, column_bcast]

end Cert.KernelIdeal.Classes

end
-- ==== Proof.Region1.lean ====
/-
  The second layer's output array after its pipelined region, as one function of the arrays the region finds.
  The region walks 50 grid points. Point `t` fetches rows `2000 t … 2000 t + 1999` of the aggregated array and of the
  degree column, the whole 64 × 16 weight matrix and the bias row, and writes back the same rows of the 16-column output.
  What it writes is the matching row block of `Gcn.logits` of the whole arrays, and the 50 row blocks tile the output:
  the output ends holding `Gcn.logits` of the arrays at the region's entry, whatever those contents are.
-/
import proofs.«158913_j80968723464705_1_alg».proof.Proof.Gen.KernelIdeal.Frame
import proofs.«158913_j80968723464705_1_alg».proof.Proof.Payload1
import proofs.«158913_j80968723464705_1_alg».proof.Proof.DenseSpec
import Idealize.ShloMosaic.Lib.Pipeline.Value

set_option maxRecDepth 16384

noncomputable section

open scoped BigOperators

namespace Cert.KernelIdeal.Classes

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated array's, the degree column's and the output's windows move one row
    block per point; the weights' and the bias's stay at the one block. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- ONE POINT, over plain arrays: if the four blocks are rows `2000 T …` of the aggregated array and of the degree
    column, the weights and the bias row, the payload at a block entry is `Gcn.logits` at the array entry under it. -/
theorem point1 (A : S100000x64.Idx → EReal) (Nn : S100000x1.Idx → EReal) (W : S64x16.Idx → EReal) (B : S1x16.Idx → EReal)
    (x0 : Vec Ideal S2000x64 .f32) (x1 : Vec Ideal S2000x1 .f32) (x2 : Vec Ideal S64x16 .f32) (x3 : Vec Ideal S1x16 .f32) (T : Nat)
    (h0 : ∀ (x : S2000x64.Idx) (i : S100000x64.Idx), (i 0).val = T * 2000 + (x 0).val → (i 1).val = (x 1).val → x0 x = A i)
    (h1 : ∀ (x : S2000x1.Idx) (i : S100000x1.Idx), (i 0).val = T * 2000 + (x 0).val → (i 1).val = (x 1).val → x1 x = Nn i)
    (h2 : x2 = W) (h3 : x3 = B) (y : S2000x16.Idx) (i : S100000x16.Idx)
    (hi0 : (i 0).val = T * 2000 + (y 0).val) (hi1 : (i 1).val = (y 1).val) :
    k1_pay1 (F := Ideal) x0 x1 x2 x3 y = Cert.Gcn.logits A Nn W B i := by
  obtain ⟨p, q, rfl⟩ : ∃ (p : Fin 2000) (q : Fin 16), y = ix2 p q := ⟨y 0, y 1, eq_ix2 y⟩
  obtain ⟨r, s, rfl⟩ : ∃ (r : Fin 100000) (s : Fin 16), i = ix2 r s := ⟨i 0, i 1, eq_ix2 i⟩
  have hs : s = q := Fin.ext hi1
  subst hs
  subst h2 h3
  rw [pay1_apply, Cert.Gcn.logits_ix2]
  unfold Cert.Gcn.logitsAt
  have hn : x1 (ix2 p (0 : Fin 1)) = Nn (ix2 r (0 : Fin 1)) := h1 _ _ hi0 rfl
  rw [hn]
  refine congrArg (fun z => z + x3 (ix2 (0 : Fin 1) s)) (Finset.sum_congr rfl fun k _ => ?_)
  rw [h0 (ix2 p k) (ix2 r k) hi0 rfl]

/-! ## The four blocks of a point, read off the arrays the region finds -/

theorem agg_block (c : Dev nD) (t : Fin cfg1.N) (x : S2000x64.Idx) (i : S100000x64.Idx)
    (h0 : (i 0).val = t.val * 2000 + (x 0).val) (h1 : (i 1).val = (x 1).val) :
    (iblk1 V c 0 t : Vec Ideal S2000x64 .f32) x = (V c main_v48 : S100000x64.Idx → EReal) i := by
  obtain ⟨e0, e1, -⟩ := maps1 t
  unfold iblk1
  rw [View.read_apply]
  show V c main_v48 _ = V c main_v48 _
  refine congrArg (V c main_v48) (funext fun a => Fin.ext ?_)
  match a with
  | ⟨0, _⟩ => show win1_0.index t 0 * 2000 + 1 * (x 0).val = (i 0).val; rw [e0, h0]; omega
  | ⟨1, _⟩ => show win1_0.index t 1 * 64 + 1 * (x 1).val = (i 1).val; rw [e1, h1]; omega

theorem deg_block (c : Dev nD) (t : Fin cfg1.N) (x : S2000x1.Idx) (i : S100000x1.Idx)
    (h0 : (i 0).val = t.val * 2000 + (x 0).val) (h1 : (i 1).val = (x 1).val) :
    (iblk1 V c 1 t : Vec Ideal S2000x1 .f32) x = (V c main_v49 : S100000x1.Idx → EReal) i := by
  obtain ⟨-, -, e0, e1, -⟩ := maps1 t
  unfold iblk1
  rw [View.read_apply]
  show V c main_v49 _ = V c main_v49 _
  refine congrArg (V c main_v49) (funext fun a => Fin.ext ?_)
  match a with
  | ⟨0, _⟩ => show win1_1.index t 0 * 2000 + 1 * (x 0).val = (i 0).val; rw [e0, h0]; omega
  | ⟨1, _⟩ => show win1_1.index t 1 * 1 + 1 * (x 1).val = (i 1).val; rw [e1, h1]; omega

theorem weight_block (c : Dev nD) (t : Fin cfg1.N) :
    (iblk1 V c 2 t : Vec Ideal S64x16 .f32) = (V c main_arg5 : S64x16.Idx → EReal) := by
  obtain ⟨-, -, -, -, e0, e1, -⟩ := maps1 t
  funext x
  unfold iblk1
  rw [View.read_apply]
  show V c main_arg5 _ = V c main_arg5 _
  refine congrArg (V c main_arg5) (funext fun a => Fin.ext ?_)
  match a with
  | ⟨0, _⟩ => show win1_2.index t 0 * 64 + 1 * (x 0).val = (x 0).val; rw [e0]; omega
  | ⟨1, _⟩ => show win1_2.index t 1 * 16 + 1 * (x 1).val = (x 1).val; rw [e1]; omega

theorem bias_block (c : Dev nD) (t : Fin cfg1.N) :
    (iblk1 V c 3 t : Vec Ideal S1x16 .f32) = (V c main_v50 : S1x16.Idx → EReal) := by
  obtain ⟨-, -, -, -, -, -, e0, e1, -⟩ := maps1 t
  funext x
  unfold iblk1
  rw [View.read_apply]
  show V c main_v50 _ = V c main_v50 _
  refine congrArg (V c main_v50) (funext fun a => Fin.ext ?_)
  match a with
  | ⟨0, _⟩ => show win1_3.index t 0 * 1 + 1 * (x 0).val = (x 0).val; rw [e0]; omega
  | ⟨1, _⟩ => show win1_3.index t 1 * 16 + 1 * (x 1).val = (x 1).val; rw [e1]; omega

/-- WHAT POINT `t` WRITES BACK is row block `t` of `Gcn.logits` of the arrays the region finds. -/
theorem flushed1_eq (c : Dev nD) (t : Fin cfg1.N) :
    (dat1 V c).flushed 4 t
      = ((cfg1.win 4).blk t).view.read (Elt Ideal) (Cert.Gcn.logits (V c main_v48) (V c main_v49) (V c main_arg5) (V c main_v50)) := by
  obtain ⟨-, -, -, -, -, -, -, -, e0, e1⟩ := maps1 t
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S64x16) hz,
    View.ld_unit_zero (S := S1x16) hz]
  funext y
  rw [View.read_apply]
  exact point1 (V c main_v48) (V c main_v49) (V c main_arg5) (V c main_v50) (iblk1 V c 0 t) (iblk1 V c 1 t) (iblk1 V c 2 t) (iblk1 V c 3 t)
    t.val (agg_block V c t) (deg_block V c t) (weight_block V c t) (bias_block V c t) y (((cfg1.win 4).blk t).view.emb y)
    (by show win1_4.index t 0 * 2000 + 1 * (y 0).val = t.val * 2000 + (y 0).val; rw [e0]; omega)
    (by show win1_4.index t 1 * 16 + 1 * (y 1).val = (y 1).val; rw [e1]; omega)

/-- An index of the output array is in point `t`'s block iff each coordinate is in the block's range on its axis. -/
theorem mem_blk1 (t : Fin cfg1.N) (i : S100000x16.Idx) :
    i ∈ ((cfg1.win 4).blk t).view.set ↔ ∀ a : Fin 2, win1_4.index t a * S2000x16.size a ≤ (i a).val ∧ (i a).val < win1_4.index t a * S2000x16.size a + S2000x16.size a := by
  show i ∈ ((View.whole main_v51).slice (win1_4.rect t)).set ↔ _
  rw [View.set_slice_whole, Rect.mem_set_unit]
  exact Iff.rfl

/-- The 50 row blocks tile the output: row `r` lies in the block of point `r / 2000`. -/
theorem cover1 (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  have hN : cfg1.N = 50 := N_1
  have hq : (i 0).val / 2000 < cfg1.N := by rw [hN]; omega
  obtain ⟨-, -, -, -, -, -, -, -, e0, e1⟩ := maps1 ⟨(i 0).val / 2000, hq⟩
  refine ⟨⟨(i 0).val / 2000, hq⟩, flush1_4 _, ?_⟩
  rw [mem_blk1]
  intro a
  match a with
  | ⟨0, _⟩ =>
    show win1_4.index ⟨(i 0).val / 2000, hq⟩ 0 * 2000 ≤ (i 0).val ∧ (i 0).val < win1_4.index ⟨(i 0).val / 2000, hq⟩ 0 * 2000 + 2000
    rw [e0]; show (i 0).val / 2000 * 2000 ≤ (i 0).val ∧ (i 0).val < (i 0).val / 2000 * 2000 + 2000; omega
  | ⟨1, _⟩ =>
    show win1_4.index ⟨(i 0).val / 2000, hq⟩ 1 * 16 ≤ (i 1).val ∧ (i 1).val < win1_4.index ⟨(i 0).val / 2000, hq⟩ 1 * 16 + 16
    rw [e1]; omega

/-- THE SECOND LAYER'S OUTPUT ARRAY after the region. -/
theorem final1 (c : Dev nD) :
    (dat1 V c).arrAt 4 cfg1.N = Cert.Gcn.logits (V c main_v48) (V c main_v49) (V c main_arg5) (V c main_v50) :=
  (dat1 V c).arrAt_eq_of_cover 4 _ (fun t _ => flushed1_eq V c t) cover1

end Cert.KernelIdeal.Classes

end
-- ==== Proof.KernelResult.lean ====
/-
  The kernel program's result buffer, read back through its run: the first region leaves `Gcn.hidden` of the first
  aggregation, the destination scale and the first layer's weights and bias in its output; the second region leaves
  `Gcn.logits` of the aggregation of that output, the same scale and the second layer's weights and bias. So the result
  buffer ends at

      logits (aggregate (hidden (aggregate features ns src dst) nd W1 b1) ns src dst) nd W2 b2

  over the launch contents of the seven arguments, `ns` and `nd` the degree scales of `src` and `dst`.
-/
import proofs.«158913_j80968723464705_1_alg».proof.Proof.KernelValue
import proofs.«158913_j80968723464705_1_alg».proof.Proof.Region0
import proofs.«158913_j80968723464705_1_alg».proof.Proof.Region1

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The hidden features: the first region's output after its run. -/
def hiddenOut (c : Dev nD) : FVec Ideal S100000x64 .f32 :=
  Cert.Gcn.hidden (aggregate (F := Ideal) (m ((c.tc : Thread nD τ).loc main_arg0)) (degScale (F := Ideal) (m ((c.tc : Thread nD τ).loc main_arg1))) (m ((c.tc : Thread nD τ).loc main_arg1)) (m ((c.tc : Thread nD τ).loc main_arg2)))
    (shapeCast S100000x1 (degScale (F := Ideal) (m ((c.tc : Thread nD τ).loc main_arg2))) shapeCasts_S100000_S100000x1) (m ((c.tc : Thread nD τ).loc main_arg3))
    (shapeCast S1x64 (m ((c.tc : Thread nD τ).loc main_arg4)) shapeCasts_S64_S1x64)

theorem W6_v35 (c : Dev nD) : W6 m ρ c (Proc.devRef .tc main_v35) = hiddenOut m c := by
  refine (W6_arr m ρ c 4).trans ((Dense.final0 (V5 m ρ) c).trans ?_)
  rw [V5_v32, V5_v33, V5_arg3, V5_v34]
  rfl

/-- THE KERNEL PROGRAM'S RESULT: the second region's output after the run. -/
theorem result_eq (c : Dev nD) :
    W8 m ρ c (Proc.devRef .tc main_v51)
      = Cert.Gcn.logits (aggregate (F := Ideal) (hiddenOut m c) (degScale (F := Ideal) (m ((c.tc : Thread nD τ).loc main_arg1))) (m ((c.tc : Thread nD τ).loc main_arg1)) (m ((c.tc : Thread nD τ).loc main_arg2)))
          (shapeCast S100000x1 (degScale (F := Ideal) (m ((c.tc : Thread nD τ).loc main_arg2))) shapeCasts_S100000_S100000x1) (m ((c.tc : Thread nD τ).loc main_arg5))
          (shapeCast S1x16 (m ((c.tc : Thread nD τ).loc main_arg6)) shapeCasts_S16_S1x16) := by
  refine (W8_arr m ρ c 4).trans ((Classes.final1 (V7 m ρ) c).trans ?_)
  rw [V7_v48, V7_v49, V7_arg5, V7_v50, W6_v35, W6_v9, W6_v19, W6_arg1, W6_arg2, W6_arg5, W6_arg6]

end Cert.KernelIdeal.Bridge

end
-- ==== Proof.RefDense.lean ====
/-
  The reference read back. Its result term, as generated, is the composition of four kinds of stage: the degree scale of
  an endpoint array, one layer's gather–scatter aggregation, and the two dense stages (scale the rows by the destination
  degree scale, multiply by the weights, add the bias; the first layer clipped at zero). Here each stage is named, the
  result term is restated over the names, and each dense stage is read index by index on the extended reals: entry
  `(p, q)` of `(a ⊙ nd) · W + b` is `∑ₖ (a[p, k] · nd[p]) · W[k, q] + b[q]`, the host's product being the plain sum over
  the 64 contracted positions, and the two broadcasts of `nd` and of `b` reading row `p` and column `q`.
-/
import proofs.«158913_j80968723464705_1_alg».proof.Proof.RefRun
import proofs.«158913_j80968723464705_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Bridge

open Cert.ReferenceIdeal Cert.ReferenceIdeal.Gen Idealize.ShloMosaic Idealize.ShloMosaic.TcCoe Idealize.SL.Sem Idealize.ShloMosaic.ValueIdx

section Chain

variable {F : FTy → Type} [FloatOps F]

/-- The degree scale of an edge-endpoint array: the degree of a node is the number of edges whose endpoint it is (ones
    scatter-added at the endpoints); a node of positive degree is scaled by the inverse square root of its degree, clamped
    from below at one, a node of degree zero by one. -/
def degScale (idx : IVec S1600000 32) : FVec F S100000 .f32 :=
  select
    (cmpf (F := F) .ogt
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))
      (broadcastInDim S100000 ![] bcast_S_S100000 (constant S_ .f32 0x00000000#32)))
    (Host.rsqrt
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 idx)
          (broadcastInDim S1600000 ![] bcast_S_S1600000 (constant S_ .f32 0x3F800000#32)))
        (broadcastInDim S100000 ![] bcast_S_S100000 (constant S_ .f32 0x3F800000#32))))
    (broadcastInDim S100000 ![] bcast_S_S100000 (id (constant S_ .f32 0x3F800000#32)))

/-- One layer's message passing: scale every node's features by its source-degree scale, gather the scaled row of each
    edge's source (a negative source index counted from the end), and scatter-add the rows at the edges' destinations. -/
def aggregate (x : FVec F S100000x64 .f32) (ns : FVec F S100000 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164
      (mulf x (broadcastInDim S100000x64 ![0, 1] bcast_S100000x1_S100000x64_0_1 (broadcastInDim S100000x1 ![0] bcast_S100000_S100000x1_0 ns)))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The first layer's dense stage as the reference spells it. -/
def denseHidden (a : FVec F S100000x64 .f32) (nd : FVec F S100000 .f32) (W : FVec F S64x64 .f32) (b : FVec F S64 .f32) : FVec F S100000x64 .f32 :=
  maximumf
    (addf
      (Host.dotGeneral dot_S100000x64_S64x64_S100000x64_1_0_0_1_n_n none
        (mulf a (broadcastInDim S100000x64 ![0, 1] bcast_S100000x1_S100000x64_0_1 (broadcastInDim S100000x1 ![0] bcast_S100000_S100000x1_0 nd))) W)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer's dense stage as the reference spells it. -/
def denseLogits (a : FVec F S100000x64 .f32) (nd : FVec F S100000 .f32) (W : FVec F S64x16 .f32) (b : FVec F S16 .f32) : FVec F S100000x16 .f32 :=
  addf
    (Host.dotGeneral dot_S100000x64_S64x16_S100000x16_1_0_0_1_n_n none
      (mulf a (broadcastInDim S100000x64 ![0, 1] bcast_S100000x1_S100000x64_0_1 (broadcastInDim S100000x1 ![0] bcast_S100000_S100000x1_0 nd))) W)
    (broadcastInDim S100000x16 ![0, 1] bcast_S1x16_S100000x16_0_1 (broadcastInDim S1x16 ![1] bcast_S16_S1x16_1 b))

set_option maxRecDepth 8192 in
/-- THE REFERENCE'S RESULT over the named stages: two layers, each an aggregation then a dense stage, with the two
    degree scales recomputed in each layer from the same endpoint arrays. -/
theorem res_eq (m : (ℓ : Loc nD τ sig) → Buf (Elt F) ℓ) (c : Dev nD) :
    RunPatched.res_main_v80 (F := F) m c
      = denseLogits
          (aggregate
            (denseHidden
              (aggregate (m ((c.tc : Thread nD τ).loc main_arg0)) (degScale (m ((c.tc : Thread nD τ).loc main_arg1)))
                (m ((c.tc : Thread nD τ).loc main_arg1)) (m ((c.tc : Thread nD τ).loc main_arg2)))
              (degScale (m ((c.tc : Thread nD τ).loc main_arg2))) (m ((c.tc : Thread nD τ).loc main_arg3)) (m ((c.tc : Thread nD τ).loc main_arg4)))
            (degScale (m ((c.tc : Thread nD τ).loc main_arg1))) (m ((c.tc : Thread nD τ).loc main_arg1)) (m ((c.tc : Thread nD τ).loc main_arg2)))
          (degScale (m ((c.tc : Thread nD τ).loc main_arg2))) (m ((c.tc : Thread nD τ).loc main_arg5)) (m ((c.tc : Thread nD τ).loc main_arg6)) := by
  unfold RunPatched.res_main_v80 denseLogits denseHidden aggregate degScale
  rfl

end Chain

/-! ## The layout operations of the dense stages, read at an index -/

/-- A per-node vector made a column and broadcast along the features reads, at `(p, k)`, the vector at `p`. -/
theorem rowScale_apply (nd : FVec Ideal S100000 .f32) (p : Fin 100000) (k : Fin 64) :
    broadcastInDim S100000x64 ![0, 1] bcast_S100000x1_S100000x64_0_1 (broadcastInDim S100000x1 ![0] bcast_S100000_S100000x1_0 nd) (ix2 p k)
      = nd (ix1 p) := by
  refine (broadcastInDim_apply _ bcast_S100000x1_S100000x64_0_1 _ (ix2 p k) (ix2 p (0 : Fin 1)) fun a => ?_).trans ?_
  · match a with
    | ⟨0, _⟩ => show p.val = if (100000 : Nat) = 1 then 0 else p.val; rw [if_neg (by decide)]
    | ⟨1, _⟩ => show 0 = if (1 : Nat) = 1 then 0 else k.val; rw [if_pos rfl]
  · exact broadcastInDim_apply _ bcast_S100000_S100000x1_0 nd (ix2 p (0 : Fin 1)) (ix1 p) fun a => by
      match a with
      | ⟨0, _⟩ => show p.val = if (100000 : Nat) = 1 then 0 else p.val; rw [if_neg (by decide)]

/-- The 64-entry bias made a row and broadcast over the nodes reads, at `(p, q)`, the bias at `q`. -/
theorem bias64_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ bcast_S1x64_S100000x64_0_1 _ (ix2 p q) (ix2 (0 : Fin 1) q) fun a => ?_).trans ?_
  · match a with
    | ⟨0, _⟩ => show 0 = if (1 : Nat) = 1 then 0 else p.val; rw [if_pos rfl]
    | ⟨1, _⟩ => show q.val = if (64 : Nat) = 1 then 0 else q.val; rw [if_neg (by decide)]
  · exact broadcastInDim_apply _ bcast_S64_S1x64_1 b (ix2 (0 : Fin 1) q) (ix1 q) fun a => by
      match a with
      | ⟨0, _⟩ => show q.val = if (64 : Nat) = 1 then 0 else q.val; rw [if_neg (by decide)]

/-- The 16-entry bias made a row and broadcast over the nodes reads, at `(p, q)`, the bias at `q`. -/
theorem bias16_apply (b : FVec Ideal S16 .f32) (p : Fin 100000) (q : Fin 16) :
    broadcastInDim S100000x16 ![0, 1] bcast_S1x16_S100000x16_0_1 (broadcastInDim S1x16 ![1] bcast_S16_S1x16_1 b) (ix2 p q) = b (ix1 q) := by
  refine (broadcastInDim_apply _ bcast_S1x16_S100000x16_0_1 _ (ix2 p q) (ix2 (0 : Fin 1) q) fun a => ?_).trans ?_
  · match a with
    | ⟨0, _⟩ => show 0 = if (1 : Nat) = 1 then 0 else p.val; rw [if_pos rfl]
    | ⟨1, _⟩ => show q.val = if (16 : Nat) = 1 then 0 else q.val; rw [if_neg (by decide)]
  · exact broadcastInDim_apply _ bcast_S16_S1x16_1 b (ix2 (0 : Fin 1) q) (ix1 q) fun a => by
      match a with
      | ⟨0, _⟩ => show q.val = if (16 : Nat) = 1 then 0 else q.val; rw [if_neg (by decide)]

/-- A per-node vector reshaped to a column reads, at `(p, 0)`, the vector at `p`. -/
theorem column_apply (nd : FVec Ideal S100000 .f32) (h : S100000.ShapeCasts S100000x1) (p : Fin 100000) :
    shapeCast S100000x1 nd h (ix2 p (0 : Fin 1)) = nd (ix1 p) :=
  shapeCast_apply nd h _ _ (by
    rw [Shape.rowMajor_val_one, Shape.rowMajor_val_two]
    show p.val = p.val * 1 + 0
    omega)

/-! ## The host products' operand indices: output `(p, q)` and contracted position `k` read `(p, k)` and `(k, q)` -/

theorem lhsH_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhsH_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhsH_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhsH_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem productH_apply (L : FVec Ideal S100000x64 .f32) (R : FVec Ideal S64x64 .f32) (p : Fin 100000) (q : Fin 64) :
    Host.dotGeneral dot_S100000x64_S64x64_S100000x64_1_0_0_1_n_n none L R (ix2 p q) = ∑ k : Fin 64, L (ix2 p k) * R (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact lhsH_0 _ _
    | ⟨1, _⟩ => exact (lhsH_1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (rhsH_0 _ _).trans hk
    | ⟨1, _⟩ => exact rhsH_1 _ _)
  rw [el, er]

theorem lhsL_0 (i : S100000x16.Idx) (q : dot_S100000x64_S64x16_S100000x16_1_0_0_1_n_n.contr.Idx) : (dot_S100000x64_S64x16_S100000x16_1_0_0_1_n_n.lhsIdx i q 0).val = (i 0).val := by
  unfold DotDims.lhsIdx
  rw [dif_neg (show ¬(0 : Fin S100000x64.rank) ∈ dot_S100000x64_S64x16_S100000x16_1_0_0_1_n_n.lhsBatch by decide), dif_pos (show (0 : Fin S100000x64.rank) ∈ dot_S100000x64_S64x16_S100000x16_1_0_0_1_n_n.lhsNonContracting by decide)]
  rfl
theorem lhsL_1 (i : S100000x16.Idx) (q : dot_S100000x64_S64x16_S100000x16_1_0_0_1_n_n.contr.Idx) : (dot_S100000x64_S64x16_S100000x16_1_0_0_1_n_n.lhsIdx i q 1).val = (q ⟨0, by decide⟩).val :=
  dot_S100000x64_S64x16_S100000x16_1_0_0_1_n_n.lhsIdx_val_of_single rfl i q
theorem rhsL_0 (i : S100000x16.Idx) (q : dot_S100000x64_S64x16_S100000x16_1_0_0_1_n_n.contr.Idx) : (dot_S100000x64_S64x16_S100000x16_1_0_0_1_n_n.rhsIdx i q 0).val = (q ⟨0, by decide⟩).val :=
  dot_S100000x64_S64x16_S100000x16_1_0_0_1_n_n.rhsIdx_val_of_single rfl i q
theorem rhsL_1 (i : S100000x16.Idx) (q : dot_S100000x64_S64x16_S100000x16_1_0_0_1_n_n.contr.Idx) : (dot_S100000x64_S64x16_S100000x16_1_0_0_1_n_n.rhsIdx i q 1).val = (i 1).val := by
  unfold DotDims.rhsIdx
  rw [dif_neg (show ¬(1 : Fin S64x16.rank) ∈ dot_S100000x64_S64x16_S100000x16_1_0_0_1_n_n.rhsBatch by decide), dif_pos (show (1 : Fin S64x16.rank) ∈ dot_S100000x64_S64x16_S100000x16_1_0_0_1_n_n.rhsNonContracting by decide)]
  rfl

theorem productL_apply (L : FVec Ideal S100000x64 .f32) (R : FVec Ideal S64x16 .f32) (p : Fin 100000) (q : Fin 16) :
    Host.dotGeneral dot_S100000x64_S64x16_S100000x16_1_0_0_1_n_n none L R (ix2 p q) = ∑ k : Fin 64, L (ix2 p k) * R (ix2 k q) := by
  simp only [Host.dotGeneral]
  rw [Ideal.dotGeneral_apply, ← Equiv.sum_comp (contrEquiv1 dot_S100000x64_S64x16_S100000x16_1_0_0_1_n_n 64 rfl rfl).symm]
  refine Finset.sum_congr rfl fun k _ => ?_
  have hk := contrEquiv1_symm_val dot_S100000x64_S64x16_S100000x16_1_0_0_1_n_n 64 rfl rfl k
  have el : dot_S100000x64_S64x16_S100000x16_1_0_0_1_n_n.lhsIdx (ix2 p q) ((contrEquiv1 dot_S100000x64_S64x16_S100000x16_1_0_0_1_n_n 64 rfl rfl).symm k) = ix2 p k := funext fun a => Fin.ext (by
    match a with
    | ⟨0, _⟩ => exact lhsL_0 _ _
    | ⟨1, _⟩ => exact (lhsL_1 _ _).trans hk)
  have er : dot_S100000x64_S64x16_S100000x16_1_0_0_1_n_n.rhsIdx (ix2 p q) ((contrEquiv1 dot_S100000x64_S64x16_S100000x16_1_0_0_1_n_n 64 rfl rfl).symm k) = ix2 k q := funext fun a => Fin.ext (by
    match a with
    | ⟨0, _⟩ => exact (rhsL_0 _ _).trans hk
    | ⟨1, _⟩ => exact rhsL_1 _ _)
  rw [el, er]

/-! ## The reference's dense stages are `Gcn.hidden` and `Gcn.logits` of the column and row forms of scale and bias -/

theorem denseHidden_eq (a : FVec Ideal S100000x64 .f32) (nd : FVec Ideal S100000 .f32) (W : FVec Ideal S64x64 .f32) (b : FVec Ideal S64 .f32)
    (h1 : S100000.ShapeCasts S100000x1) (h2 : S64.ShapeCasts S1x64) :
    denseHidden (F := Ideal) a nd W b = Cert.Gcn.hidden a (shapeCast S100000x1 nd h1) W (shapeCast S1x64 b h2) := by
  funext i
  obtain ⟨p, q, rfl⟩ : ∃ (p : Fin 100000) (q : Fin 64), i = ix2 p q := ⟨i 0, i 1, eq_ix2 i⟩
  rw [Cert.Gcn.hidden_ix2]
  unfold denseHidden Cert.Gcn.hiddenAt
  rw [maximumf_apply, addf_apply, productH_apply, bias64_apply, column_apply, shapeCast_a_1a_apply]
  refine congrArg₂ max (congrArg (· + b (ix1 q)) (Finset.sum_congr rfl fun k _ => ?_)) ?_
  · rw [mulf_apply, rowScale_apply]
  · exact (broadcastInDim_apply _ bcast_S_S100000x64 _ (ix2 p q) ix0 fun a => a.elim0).trans Ideal.ofBits_zero_f32

theorem denseLogits_eq (a : FVec Ideal S100000x64 .f32) (nd : FVec Ideal S100000 .f32) (W : FVec Ideal S64x16 .f32) (b : FVec Ideal S16 .f32)
    (h1 : S100000.ShapeCasts S100000x1) (h2 : S16.ShapeCasts S1x16) :
    denseLogits (F := Ideal) a nd W b = Cert.Gcn.logits a (shapeCast S100000x1 nd h1) W (shapeCast S1x16 b h2) := by
  funext i
  obtain ⟨p, q, rfl⟩ : ∃ (p : Fin 100000) (q : Fin 16), i = ix2 p q := ⟨i 0, i 1, eq_ix2 i⟩
  rw [Cert.Gcn.logits_ix2]
  unfold denseLogits Cert.Gcn.logitsAt
  rw [addf_apply, productL_apply, bias16_apply, column_apply, shapeCast_a_1a_apply]
  refine congrArg (· + b (ix1 q)) (Finset.sum_congr rfl fun k _ => ?_)
  rw [mulf_apply, rowScale_apply]

end Cert.ReferenceIdeal.Bridge

end
-- ==== Proof.lean ====
/-
  A two-layer graph convolution, its dense stages in two pipelined kernels, against the plain reference, over the
  extended reals.

  Both programs compute, for node features `x`, edge endpoints `src`, `dst`, weights `W1`, `W2` and biases `b1`, `b2`,

      ns = degScale src,   nd = degScale dst,
      h  = max ((aggregate x ns src dst ⊙ nd) · W1 + b1) 0,
      y  = (aggregate h ns src dst ⊙ nd) · W2 + b2,

  where `degScale` is the clamped inverse square root of a node's degree, `aggregate` scales the rows by `ns`, gathers
  each edge's source row and scatter-adds it at the edge's destination, and `⊙ nd` scales row `p` by `nd[p]`. The kernel
  program computes the scales once and the reference once per layer, from the same endpoint arrays: the same functions of
  the arguments. The aggregations are the same host operations on both sides and are never opened. The dense stages
  differ in spelling only — the kernel walks 50 row blocks, multiplies in a narrower float format (the identity here)
  into a zero accumulator, and holds the scale as a column and the bias as a row — and both are, entry by entry,
  `∑ₖ (a[p, k] · nd[p]) · W[k, q] + b[q]` (`Gcn.hidden`, `Gcn.logits`): a sum of products in the same grouping on both
  sides, so no distributive law and no finiteness of the inputs is used.

  The three programs run: the kernel programs by their generated frames, the reference by its run read back. Nothing was
  rewritten between the kernel and its idealization, so that conjunct is trivial.
-/
import proofs.«158913_j80968723464705_1_alg».proof.Defs
import proofs.«158913_j80968723464705_1_alg».proof.Proof.Gen.Kernel
import proofs.«158913_j80968723464705_1_alg».proof.Proof.Gen.Kernel.Skeleton
import proofs.«158913_j80968723464705_1_alg».proof.Proof.Gen.Kernel.Launch
import proofs.«158913_j80968723464705_1_alg».proof.Proof.Gen.Kernel.Points
import proofs.«158913_j80968723464705_1_alg».proof.Proof.Gen.Kernel.Frame
import proofs.«158913_j80968723464705_1_alg».proof.Proof.Gen.KernelIdeal
import proofs.«158913_j80968723464705_1_alg».proof.Proof.Gen.KernelIdeal.Skeleton
import proofs.«158913_j80968723464705_1_alg».proof.Proof.Gen.KernelIdeal.Launch
import proofs.«158913_j80968723464705_1_alg».proof.Proof.Gen.KernelIdeal.Points
import proofs.«158913_j80968723464705_1_alg».proof.Proof.Gen.KernelIdeal.Frame
import proofs.«158913_j80968723464705_1_alg».proof.Proof.Gen.ReferenceIdeal
import proofs.«158913_j80968723464705_1_alg».proof.Proof.Gen.Pre_finite_inputs
import proofs.«158913_j80968723464705_1_alg».proof.Proof.KernelRun
import proofs.«158913_j80968723464705_1_alg».proof.Proof.KernelValue
import proofs.«158913_j80968723464705_1_alg».proof.Proof.KernelResult
import proofs.«158913_j80968723464705_1_alg».proof.Proof.RefRun
import proofs.«158913_j80968723464705_1_alg».proof.Proof.RefDense
import Idealize.ShloMosaic.Adequacy
import Idealize.ShloMosaic.Init

set_option maxRecDepth 16384

noncomputable section

namespace Cert.Proof

open Idealize.ShloMosaic Idealize.ShloMosaic.TcCoe Idealize.SL.Sem

/-! ## The shared stages are the same functions in the two programs -/

section Same

variable {F : FTy → Type} [FloatOps F]

/-- The degree scale: one function, printed in both programs. -/
theorem degScale_same : Cert.KernelIdeal.Bridge.degScale (F := F) = Cert.ReferenceIdeal.Bridge.degScale (F := F) := rfl

/-- The gather–scatter aggregation: one function, printed in both programs. -/
theorem aggregate_same : Cert.KernelIdeal.Bridge.aggregate (F := F) = Cert.ReferenceIdeal.Bridge.aggregate (F := F) := rfl

end Same

/-! ## The two results are one array -/

/-- From memories agreeing on the seven arguments, the reference's result term is the contents the kernel program's
    result buffer ends at. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (h3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (h4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (h5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (h6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6))) :
    Cert.ReferenceIdeal.RunPatched.res_main_v80 (F := Ideal) m' c
      = Cert.KernelIdeal.Gen.W8 m ρ c (Proc.devRef .tc Cert.KernelIdeal.main_v51) := by
  rw [Cert.ReferenceIdeal.Bridge.res_eq, Cert.KernelIdeal.Bridge.result_eq, h0, h1, h2, h3, h4, h5, h6,
    Cert.ReferenceIdeal.Bridge.denseLogits_eq _ _ _ _ Cert.KernelIdeal.Gen.shapeCasts_S100000_S100000x1 Cert.KernelIdeal.Gen.shapeCasts_S16_S1x16,
    Cert.ReferenceIdeal.Bridge.denseHidden_eq _ _ _ _ Cert.KernelIdeal.Gen.shapeCasts_S100000_S100000x1 Cert.KernelIdeal.Gen.shapeCasts_S64_S1x64]
  unfold Cert.KernelIdeal.Bridge.hiddenOut
  rw [degScale_same, aggregate_same]

/-! ## The claims -/

theorem frame_k : Cert.frame_Kernel := fun m ρ _ => Cert.Kernel.Gen.frame m ρ

theorem frame_ki : Cert.frame_KernelIdeal := fun m ρ _ => Cert.KernelIdeal.Gen.frame m ρ

/-- The reference runs: its run read back, the result dropped. -/
theorem frame_ri : Cert.frame_ReferenceIdeal := fun m ρ _ =>
  (θ_run Cert.ReferenceIdeal.defs _ _).mono (fun _ h c => (h c).2) (Cert.ReferenceIdeal.RunPatched.run (F := Ideal) m ρ)

/-- Nothing was rewritten between the kernel and its idealization. -/
theorem preserves : Cert.preserves_Kernel_KernelIdeal := trivial

/-- Both programs run, and end with one and the same result array. -/
theorem algebraic : Cert.algebraic_KernelIdeal_ReferenceIdeal := by
  intro m ρ m' ρ' _ hagree
  refine ⟨fun c => Cert.KernelIdeal.Gen.W8 m ρ c (Proc.devRef .tc Cert.KernelIdeal.main_v51), Cert.KernelIdeal.Gen.run_out m ρ, ?_⟩
  refine (θ_run Cert.ReferenceIdeal.defs _ _).mono (fun _ h c => ⟨(h c).1.trans ?_, (h c).2⟩)
    (Cert.ReferenceIdeal.RunPatched.run (F := Ideal) m' ρ')
  obtain ⟨h0, h1, h2, h3, h4, h5, h6⟩ := hagree c
  exact results_agree m ρ m' c h0 h1 h2 h3 h4 h5 h6

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
